-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : FVec F S128x128 .f32) (main_arg2 : FVec F S128x128 .f32) (main_arg3 : FVec F S128 .f32) (main_arg4 : IVec S1600000 32) (main_arg5 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S5000x128 : Shape := ⟨2, ![5000, 128]⟩
abbrev S1x128 : Shape := ⟨2, ![1, 128]⟩

abbrev nBuf : Space → Nat
  | .hbm => 34
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S1600000, .i32⟩
  | .hbm, ⟨5, _⟩ => ⟨S1600000, .i32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x128, .f32⟩
  | .hbm, ⟨15, _⟩ => ⟨S_, .f32⟩
  | .hbm, ⟨16, _⟩ => ⟨S100000x128, .f32⟩
  | .hbm, ⟨17, _⟩ => ⟨S1600000x1, .i32⟩
  | .hbm, ⟨18, _⟩ => ⟨S100000x128, .f32⟩
  | .hbm, ⟨19, _⟩ => ⟨S_, .f32⟩
  | .hbm, ⟨20, _⟩ => ⟨S1600000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x128, .f32⟩
  | .hbm, ⟨30, _⟩ => ⟨S100000x128, .f32⟩
  | .hbm, ⟨31, _⟩ => ⟨S128x128, .f32⟩
  | .hbm, ⟨32, _⟩ => ⟨S128x128, .f32⟩
  | .hbm, ⟨33, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 39
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S1600000, .i32⟩
  | .hbm, ⟨5, _⟩ => ⟨S1600000, .i32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x128, .f32⟩
  | .hbm, ⟨15, _⟩ => ⟨S_, .f32⟩
  | .hbm, ⟨16, _⟩ => ⟨S100000x128, .f32⟩
  | .hbm, ⟨17, _⟩ => ⟨S1600000x1, .i32⟩
  | .hbm, ⟨18, _⟩ => ⟨S100000x128, .f32⟩
  | .hbm, ⟨19, _⟩ => ⟨S_, .f32⟩
  | .hbm, ⟨20, _⟩ => ⟨S1600000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x128, .f32⟩
  | .hbm, ⟨30, _⟩ => ⟨S100000x128, .f32⟩
  | .hbm, ⟨31, _⟩ => ⟨S128x128, .f32⟩
  | .hbm, ⟨32, _⟩ => ⟨S100000x128, .f32⟩
  | .hbm, ⟨33, _⟩ => ⟨S128x128, .f32⟩
  | .hbm, ⟨34, _⟩ => ⟨S100000x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibPlainMatmul.lean ====
/-
  A MATRIX PRODUCT READ AT AN ENTRY. A kernel's `tpu.matmul` of an m × k matrix by a k × n matrix (the left operand
  contracted on its columns, the right one on its rows, no batch axis) that accumulates into the zero splat is, at the
  ideal values and at entry (a, b), the sum over the contracted coordinate c of A(a, c) · B(c, b): the accumulator adds
  the extended real 0, and the contraction's one-axis index set is the range of c.
-/
import Idealize.ShloMosaic.Lib.ValueIdx
import Idealize.ShloMosaic.PureOps.Ideal.Laws

open scoped BigOperators

noncomputable section

namespace Idealize.ShloMosaic.PlainMatmul

open Idealize.ShloMosaic Idealize.ShloMosaic.ValueIdx

variable {m k n : Nat} {φ₁ φ₂ : FTy}

/-- The dimension numbers of a plain product, whatever the evidence that they are well formed. -/
def dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ :=
  ⟨[1], [0], [0], [1], [], [], w⟩

/-- At output entry (a, b) and contracted coordinate c the left operand is read at (a, c). -/
theorem lhsIdx_dims (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have hc := contrEquiv1_symm_val (dims w) k rfl rfl c
  funext ax; apply Fin.ext
  match ax with
  | ⟨0, _⟩ => simp [DotDims.lhsIdx, dims]; rfl
  | ⟨1, _⟩ => simp [DotDims.lhsIdx, dims]; exact hc

/-- … and the right operand at (c, b). -/
theorem rhsIdx_dims (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have hc := contrEquiv1_symm_val (dims w) k rfl rfl c
  funext ax; apply Fin.ext
  match ax with
  | ⟨0, _⟩ => simp [DotDims.rhsIdx, dims]; exact hc
  | ⟨1, _⟩ => simp [DotDims.rhsIdx, dims]; rfl

/-- The product into the zero splat, at entry (a, b): the sum of the products along row a of A and column b of B. -/
theorem matmul_zero_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  show FloatOps.matmul (dims w) prec A B (constant ⟨2, ![m, n]⟩ .f32 0x00000000#32) (ix2 a b) = _
  rw [Ideal.matmul_constant_zero_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.LayerSpec.lean ====
/-
  THE LAYER'S ROW. One node's output entry is the node's own features projected by one weight matrix, plus the
  mean of its in-neighbours' features projected by another, plus a bias:

    out(p, q) = ( Σ_k feat(p, k) · A(k, q)  +  Σ_k h(p, k) · B(k, q) )  +  bias(q),      k over the 128 input features,

  where h is the array of neighbour means and A, B are the two weight matrices already transposed, so that the
  contracted coordinate is A's and B's row. The sum of the two projections is formed first and the bias added last:
  that grouping is part of the specification, because addition of extended reals is stated here exactly as both
  programs perform it and nothing is rearranged. Row p of the result depends on row p of feat and of h only, which is
  why the same formula describes a block of consecutive rows and the whole array.
-/
import Idealize.ShloMosaic.Lib.ValueIdx
import Idealize.ShloMosaic.PureOps.Ideal

open scoped BigOperators

noncomputable section

namespace Cert.Sage

open Idealize.ShloMosaic Idealize.ShloMosaic.ValueIdx

variable {n : Nat}

/-- Entry (p, q) of the layer's output over n nodes. -/
def entry (feat h : FVec Ideal ⟨2, ![n, 128]⟩ .f32) (A B : FVec Ideal ⟨2, ![128, 128]⟩ .f32)
    (bias : FVec Ideal ⟨1, ![128]⟩ .f32) (p : Fin n) (q : Fin 128) : EReal :=
  (∑ k : Fin 128, feat (ix2 p k) * A (ix2 k q) + ∑ k : Fin 128, h (ix2 p k) * B (ix2 k q)) + bias (ix1 q)

/-- The layer's output over n nodes, as an array. -/
def layer (feat h : FVec Ideal ⟨2, ![n, 128]⟩ .f32) (A B : FVec Ideal ⟨2, ![128, 128]⟩ .f32)
    (bias : FVec Ideal ⟨1, ![128]⟩ .f32) : FVec Ideal ⟨2, ![n, 128]⟩ .f32 :=
  fun i => entry feat h A B bias (i 0) (i 1)

/-- The array at the index with coordinates (p, q) is entry (p, q). -/
theorem layer_ix2 (feat h : FVec Ideal ⟨2, ![n, 128]⟩ .f32) (A B : FVec Ideal ⟨2, ![128, 128]⟩ .f32)
    (bias : FVec Ideal ⟨1, ![128]⟩ .f32) (p : Fin n) (q : Fin 128) :
    layer feat h A B bias (ix2 p q) = entry feat h A B bias p q := rfl

/-- The layer of equal arrays is the same array. -/
theorem layer_congr {feat feat' h h' : FVec Ideal ⟨2, ![n, 128]⟩ .f32} {A A' B B' : FVec Ideal ⟨2, ![128, 128]⟩ .f32}
    {bias bias' : FVec Ideal ⟨1, ![128]⟩ .f32} (e0 : feat = feat') (e1 : h = h') (e2 : A = A') (e3 : B = B')
    (e4 : bias = bias') : layer feat h A B bias = layer feat' h' A' B' bias' := by
  subst e0 e1 e2 e3 e4; rfl

/-- An entry depends on the node's own row of feat and of h only: two pairs of arrays that agree on row p (of the
    one) and row p' (of the other) give the same entry there. This is what lets a block of rows be computed from the
    block alone. -/
theorem entry_congr {n' : Nat} (feat h : FVec Ideal ⟨2, ![n, 128]⟩ .f32) (feat' h' : FVec Ideal ⟨2, ![n', 128]⟩ .f32)
    (A B : FVec Ideal ⟨2, ![128, 128]⟩ .f32) (bias : FVec Ideal ⟨1, ![128]⟩ .f32) (p : Fin n) (p' : Fin n') (q : Fin 128)
    (hf : ∀ k : Fin 128, feat (ix2 p k) = feat' (ix2 p' k)) (hh : ∀ k : Fin 128, h (ix2 p k) = h' (ix2 p' k)) :
    entry feat h A B bias p q = entry feat' h' A B bias p' q := by
  unfold entry
  simp only [hf, hh]

end Cert.Sage

end
-- ==== Proof.BlockPayload.lean ====
/-
  WHAT ONE GRID STEP STORES. The body loads a block of 5000 consecutive rows of feat and of the neighbour means h,
  the two transposed weight matrices and the bias, rounds the four matrix operands to bf16 (the identity on the
  extended reals), forms the two products into zero accumulators, adds them, and adds the bias broadcast along the
  rows. Read at entry (p, q) of the block, a product into the zero accumulator is the sum over the contracted
  coordinate, and the broadcast bias row is bias(q): so the stored value is the layer's entry (p, q) of the block's
  own rows. Since an entry depends on its own row only, that is entry (r·5000 + p, q) of the layer over the whole
  arrays when the block holds rows r·5000 … r·5000 + 4999.
-/
import proofs.«176140_j7086696039141_1_alg».proof.Proof.Gen.KernelIdeal.Skeleton
import proofs.«176140_j7086696039141_1_alg».proof.Proof.LibPlainMatmul
import proofs.«176140_j7086696039141_1_alg».proof.Proof.LayerSpec
import Idealize.ShloMosaic.Lib.ValueLayout

open scoped BigOperators

noncomputable section

namespace Cert.KernelIdeal.Body

open Cert.KernelIdeal Cert.KernelIdeal.Gen Idealize.ShloMosaic Idealize.ShloMosaic.ValueIdx

/-- One projection of the body at entry (p, q): the operands rounded to bf16 and multiplied into the zero accumulator
    give the sum over the 128 contracted features of X(p, k) · W(k, q). -/
theorem proj_apply (X : FVec Ideal S5000x128 .f32) (W : FVec Ideal S128x128 .f32) (p : Fin 5000) (q : Fin 128) :
    matmul (F := Ideal) dot_S5000x128_S128x128_S5000x128_1_0_0_1_n_n none (truncf (F := Ideal) .bf16 X Facts₀.bitsLt_bf16_f32)
      (truncf (F := Ideal) .bf16 W Facts₀.bitsLt_bf16_f32)
      (constant (F := Ideal) S5000x128 .f32 0x00000000#32) (ix2 p q) = ∑ k : Fin 128, X (ix2 p k) * W (ix2 k q) :=
  PlainMatmul.matmul_zero_apply _ _ rfl none _ _ p q

/-- The value the body stores, at entry (p, q) of the block: the layer's entry (p, q) over the block's own rows. -/
theorem payload_apply (x0 x1 : Vec Ideal S5000x128 .f32) (x2 x3 : Vec Ideal S128x128 .f32) (x4 : Vec Ideal S128 .f32)
    (p : Fin 5000) (q : Fin 128) :
    k0_pay1 (F := Ideal) x0 x1 x2 x3 x4 (ix2 p q) = Cert.Sage.entry x0 x1 x2 x3 x4 p q := by
  unfold k0_pay1 Cert.Sage.entry
  simp only [shapeCast_self]
  rw [addf_apply, addf_apply, proj_apply, proj_apply, broadcastTo_1b_ab_apply, shapeCast_a_1a_apply]

/-- The stored block against the whole arrays. If the two row blocks hold rows r·5000 + p of feat and of h, and the
    weights and the bias are the arrays themselves, then the stored value at block index y is the layer over the whole
    arrays at the array index i with first coordinate r·5000 + y₀ and the same second coordinate. -/
theorem block_eq (feat h : FVec Ideal S100000x128 .f32) (A B : FVec Ideal S128x128 .f32) (bias : FVec Ideal S128 .f32)
    (x0 x1 : Vec Ideal S5000x128 .f32) (x2 x3 : Vec Ideal S128x128 .f32) (x4 : Vec Ideal S128 .f32) (r : Nat)
    (h0 : ∀ (p : Fin 5000) (p' : Fin 100000) (k : Fin 128), p'.val = r * 5000 + p.val → x0 (ix2 p k) = feat (ix2 p' k))
    (h1 : ∀ (p : Fin 5000) (p' : Fin 100000) (k : Fin 128), p'.val = r * 5000 + p.val → x1 (ix2 p k) = h (ix2 p' k))
    (h2 : x2 = A) (h3 : x3 = B) (h4 : x4 = bias)
    (y : S5000x128.Idx) (i : S100000x128.Idx) (hi0 : (i 0).val = r * 5000 + (y 0).val) (hi1 : (i 1).val = (y 1).val) :
    k0_pay1 (F := Ideal) x0 x1 x2 x3 x4 y = Cert.Sage.layer feat h A B bias i := by
  obtain ⟨p, q, rfl⟩ : ∃ (p : Fin 5000) (q : Fin 128), y = ix2 p q := ⟨y 0, y 1, eq_ix2 y⟩
  obtain ⟨p', q', rfl⟩ : ∃ (p' : Fin 100000) (q' : Fin 128), i = ix2 p' q' := ⟨i 0, i 1, eq_ix2 i⟩
  obtain rfl : q' = q := Fin.ext hi1
  subst h2 h3 h4
  rw [payload_apply, Cert.Sage.layer_ix2]
  exact Cert.Sage.entry_congr x0 x1 feat h x2 x3 x4 p p' q' (fun k => h0 p p' k hi0) (fun k => h1 p p' k hi0)

end Cert.KernelIdeal.Body

end
-- ==== Proof.KernelLayer.lean ====
/-
  THE KERNEL'S OUTPUT ARRAY. The grid has 20 steps; step t reads rows t·5000 … t·5000 + 4999 of feat and of the
  neighbour means, the whole of both weight matrices and of the bias, and writes rows t·5000 … t·5000 + 4999 of the
  output. What it writes is the layer's entries for those rows (the body's stored value, read against the whole
  arrays), the 20 row blocks tile the 100000 rows, and so after the run the output array is the layer over the arrays as
  the grid finds them: feat and the bias as launched, and the neighbour means and the two transposed weights as the
  operations before the grid left them.
-/
import proofs.«176140_j7086696039141_1_alg».proof.Proof.Gen.KernelIdeal.Value
import proofs.«176140_j7086696039141_1_alg».proof.Proof.BlockPayload

noncomputable section

namespace Cert.KernelIdeal.Layer

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros1 : (![0] : Fin 1 → Nat) = fun _ => 0 := funext fun a => by fin_cases a; rfl

/-- The layer over the arrays as the grid finds them on core c. -/
abbrev result (c : Dev nD) : FVec Ideal S100000x128 .f32 :=
  Cert.Sage.layer (V m c main_arg0) (V m c main_v18) (V m c main_v19) (V m c main_v20) (V m c main_arg3)

/-- Where each window's block sits at step t: the two row windows and the output at block row t, every other block
    index zero. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Every block row of the output is some step's. -/
theorem block_row_onto : ∀ b : Fin 20, ∃ t : Fin cfg0.N, win0_5.index t (0 : Fin 2) = b.val ∧ win0_5.index t (1 : Fin 2) = 0 :=
  (by decide +kernel : ∀ b : Fin 20, ∃ t : Fin grid0.N, win0_5.index t (0 : Fin 2) = b.val ∧ win0_5.index t (1 : Fin 2) = 0)

/-! ## A window's block read off any array

Stated for an arbitrary array X at the window's buffer, so that which array it is plays no part: a row window's block at
step t, read at (p, k), is the array at (t·5000 + p, k); a window whose one block is the whole array reads the array. -/

section BlockReads

variable (c : Dev nD) (t : Fin cfg0.N)

theorem feat_rows (X : Buf (Elt Ideal) ((c : Thread nD τ).loc main_arg0)) (p : Fin 5000) (p' : Fin 100000) (k : Fin 128)
    (hp : p'.val = t.val * 5000 + p.val) :
    ((cfg0.win 0).blk t).view.read (Elt Ideal) X (ix2 p k) = X (ix2 p' k) := by
  obtain ⟨a0, a1, -⟩ := block_indices t
  show X (((cfg0.win 0).blk t).view.emb (ix2 p k)) = X (ix2 p' k)
  refine congrArg X (funext fun a => Fin.ext ?_)
  match a with
  | ⟨0, _⟩ => show win0_0.index t (0 : Fin 2) * 5000 + 1 * p.val = p'.val; omega
  | ⟨1, _⟩ => show win0_0.index t (1 : Fin 2) * 128 + 1 * k.val = k.val; omega

theorem mean_rows (X : Buf (Elt Ideal) ((c : Thread nD τ).loc main_v18)) (p : Fin 5000) (p' : Fin 100000) (k : Fin 128)
    (hp : p'.val = t.val * 5000 + p.val) :
    ((cfg0.win 1).blk t).view.read (Elt Ideal) X (ix2 p k) = X (ix2 p' k) := by
  obtain ⟨-, -, b0, b1, -⟩ := block_indices t
  show X (((cfg0.win 1).blk t).view.emb (ix2 p k)) = X (ix2 p' k)
  refine congrArg X (funext fun a => Fin.ext ?_)
  match a with
  | ⟨0, _⟩ => show win0_1.index t (0 : Fin 2) * 5000 + 1 * p.val = p'.val; omega
  | ⟨1, _⟩ => show win0_1.index t (1 : Fin 2) * 128 + 1 * k.val = k.val; omega

theorem wself_whole (X : Buf (Elt Ideal) ((c : Thread nD τ).loc main_v19)) :
    ((cfg0.win 2).blk t).view.read (Elt Ideal) X = X := by
  obtain ⟨-, -, -, -, c0, c1, -⟩ := block_indices t
  funext z
  show X (((cfg0.win 2).blk t).view.emb z) = X z
  refine congrArg X (funext fun a => Fin.ext ?_)
  match a with
  | ⟨0, _⟩ => show win0_2.index t (0 : Fin 2) * 128 + 1 * (z 0).val = (z 0).val; omega
  | ⟨1, _⟩ => show win0_2.index t (1 : Fin 2) * 128 + 1 * (z 1).val = (z 1).val; omega

theorem wneigh_whole (X : Buf (Elt Ideal) ((c : Thread nD τ).loc main_v20)) :
    ((cfg0.win 3).blk t).view.read (Elt Ideal) X = X := by
  obtain ⟨-, -, -, -, -, -, d0, d1, -⟩ := block_indices t
  funext z
  show X (((cfg0.win 3).blk t).view.emb z) = X z
  refine congrArg X (funext fun a => Fin.ext ?_)
  match a with
  | ⟨0, _⟩ => show win0_3.index t (0 : Fin 2) * 128 + 1 * (z 0).val = (z 0).val; omega
  | ⟨1, _⟩ => show win0_3.index t (1 : Fin 2) * 128 + 1 * (z 1).val = (z 1).val; omega

theorem bias_whole (X : Buf (Elt Ideal) ((c : Thread nD τ).loc main_arg3)) :
    ((cfg0.win 4).blk t).view.read (Elt Ideal) X = X := by
  obtain ⟨-, -, -, -, -, -, -, -, e0, -⟩ := block_indices t
  funext z
  show X (((cfg0.win 4).blk t).view.emb z) = X z
  refine congrArg X (funext fun a => Fin.ext ?_)
  match a with
  | ⟨0, _⟩ => show win0_4.index t (0 : Fin 1) * 128 + 1 * (z 0).val = (z 0).val; omega

end BlockReads

/-- What step t writes back is rows t·5000 … of the layer over the whole arrays. -/
theorem flushed_eq (c : Dev nD) (t : Fin cfg0.N) :
    (dats m 0 c).flushed 5 t = ((cfg0.win 5).blk t).view.read (Elt Ideal) (result m c) := by
  rw [Cert.KernelIdeal.Value.flushed5]
  unfold out0_5
  rw [View.canon_unit_zero zeros2]
  simp only [View.ld_unit_zero (S := S5000x128) zeros2, View.ld_unit_zero (S := S128x128) zeros2, View.ld_unit_zero (S := S128) zeros1]
  obtain ⟨a0, a1, b0, b1, c0, c1, d0, d1, e0, f0, f1⟩ := block_indices t
  funext y
  show k0_pay1 (F := Ideal) (iblk m c 0 t) (iblk m c 1 t) (iblk m c 2 t) (iblk m c 3 t) (iblk m c 4 t) y
    = Cert.Sage.layer (V m c main_arg0) (V m c main_v18) (V m c main_v19) (V m c main_v20) (V m c main_arg3) (((cfg0.win 5).blk t).view.emb y)
  refine Body.block_eq (V m c main_arg0) (V m c main_v18) (V m c main_v19) (V m c main_v20) (V m c main_arg3)
    (iblk m c 0 t) (iblk m c 1 t) (iblk m c 2 t) (iblk m c 3 t) (iblk m c 4 t) t.val ?_ ?_ ?_ ?_ ?_ y _ ?_ ?_
  · exact fun p p' k hp => feat_rows c t (V m c main_arg0) p p' k hp
  · exact fun p p' k hp => mean_rows c t (V m c main_v18) p p' k hp
  · exact wself_whole c t (V m c main_v19)
  · exact wneigh_whole c t (V m c main_v20)
  · exact bias_whole c t (V m c main_arg3)
  · show win0_5.index t (0 : Fin 2) * 5000 + 1 * (y 0).val = t.val * 5000 + (y 0).val; omega
  · show win0_5.index t (1 : Fin 2) * 128 + 1 * (y 1).val = (y 1).val; omega

/-- An index of the output array is in step t's block iff each coordinate is in the block's range on its axis. -/
theorem mem_block (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v21).slice (win0_5.rect t)).set ↔ _
  rw [View.set_slice_whole, Rect.mem_set_unit]
  exact Iff.rfl

/-- The row blocks tile the output: row r lies in the block of the step with block row r / 5000. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, q0, q1⟩ := block_row_onto ⟨(i 0).val / 5000, by omega⟩
  have q0' : win0_5.index t (0 : Fin 2) = (i 0).val / 5000 := q0
  refine ⟨t, flush0_5 t, ?_⟩
  rw [mem_block]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- After the run the output array is the layer over the arrays as the grid finds them. -/
theorem final (c : Dev nD) : (dats m 0 c).arrAt 5 cfg0.N = result m c :=
  (dats m 0 c).arrAt_eq_of_cover 5 (result m c) (fun t _ => flushed_eq m c t) covered

end Cert.KernelIdeal.Layer

end
-- ==== Proof.HostPrefix.lean ====
/-
  BEFORE THE GRID, THE REFERENCE'S OWN OPERATIONS. The kernel's program first computes, with ordinary array
  operations, the mean of each node's in-neighbours' features (a gather of feat by the source ids, a scatter-add by the
  destination ids, a scatter-add of ones for the in-degree, the quotient by the in-degree raised to at least 1) and the
  two weight matrices transposed; only then does the grid run. The reference computes the same three arrays by the same
  operations in the same order from the same arguments. So each of the three arrays the grid finds is the
  reference's corresponding intermediate array as a function of the launch arguments: the two programs' operation
  lists are compared one operation at a time, and no gather, scatter or quotient is ever evaluated.
-/
import proofs.«176140_j7086696039141_1_alg».proof.Proof.Gen.KernelIdeal.Frame
import proofs.«176140_j7086696039141_1_alg».proof.Proof.Gen.ReferenceIdeal.Read
import Idealize.ShloMosaic.Lib.StableHlo.Run

noncomputable section

namespace Cert.KernelIdeal.Layer

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The transposed self weight the grid finds is the reference's transposed self weight. -/
theorem wself_eq (c : Dev nD) :
    (V m c main_v19 : FVec Ideal S128x128 .f32)
      = Cert.ReferenceIdeal.Read.val_main_v21 (F := Ideal) (m ((c : Thread nD τ).loc main_arg1)) := by
  dsimp only [V, hostOps0]
  after_results_simp
  rfl

/-- The transposed neighbour weight the grid finds is the reference's transposed neighbour weight. -/
theorem wneigh_eq (c : Dev nD) :
    (V m c main_v20 : FVec Ideal S128x128 .f32)
      = Cert.ReferenceIdeal.Read.val_main_v19 (F := Ideal) (m ((c : Thread nD τ).loc main_arg2)) := by
  dsimp only [V, hostOps0]
  after_results_simp
  rfl

/-- The neighbour means the grid finds are the reference's neighbour means. -/
theorem mean_eq (c : Dev nD) :
    (V m c main_v18 : FVec Ideal S100000x128 .f32)
      = Cert.ReferenceIdeal.Read.val_main_v18 (F := Ideal) (m ((c : Thread nD τ).loc main_arg0))
          (m ((c : Thread nD τ).loc main_arg4)) (m ((c : Thread nD τ).loc main_arg5)) := by
  dsimp only [V, hostOps0]
  after_results_simp
  rfl

end Cert.KernelIdeal.Layer

end
-- ==== Proof.ReferenceLayer.lean ====
/-
  THE REFERENCE IS THE LAYER. jnp computes feat @ W_selfᵀ + h @ W_neighᵀ + bias with two dot products over the
  whole arrays, h being the neighbour means and the transposes taken first. Read at entry (p, q), a dot product that
  contracts the left operand's columns with the right operand's rows is the sum over the 128 features, the two sums are
  added first and the bias, broadcast along the nodes, last: the layer's entry (p, q) over feat, the neighbour means,
  the two transposed weights and the bias. The neighbour means and the transposes are left as the arrays they are;
  nothing here looks inside them.
-/
import proofs.«176140_j7086696039141_1_alg».proof.Proof.Gen.ReferenceIdeal.Read
import proofs.«176140_j7086696039141_1_alg».proof.Proof.LayerSpec

open scoped BigOperators

noncomputable section

namespace Cert.ReferenceIdeal.Layer

open Cert.ReferenceIdeal Cert.ReferenceIdeal.Read Idealize.ShloMosaic Idealize.ShloMosaic.ValueIdx

/-- Where the two dot products and the bias's two broadcasts read their operands, at output entry (p, q) and
    contracted feature k: the left operand at (p, k), the right one at (k, q), the bias at q. -/
theorem left_self (p : Fin 100000) (q k : Fin 128) : lidx_main_v22 (ix2 p q) k = ix2 p k :=
  funext fun a => Fin.ext (by match a with | ⟨0, _⟩ => rfl | ⟨1, _⟩ => rfl)
theorem right_self (p : Fin 100000) (q k : Fin 128) : ridx_main_v22 (ix2 p q) k = ix2 k q :=
  funext fun a => Fin.ext (by match a with | ⟨0, _⟩ => rfl | ⟨1, _⟩ => rfl)
theorem left_neigh (p : Fin 100000) (q k : Fin 128) : lidx_main_v20 (ix2 p q) k = ix2 p k :=
  funext fun a => Fin.ext (by match a with | ⟨0, _⟩ => rfl | ⟨1, _⟩ => rfl)
theorem right_neigh (p : Fin 100000) (q k : Fin 128) : ridx_main_v20 (ix2 p q) k = ix2 k q :=
  funext fun a => Fin.ext (by match a with | ⟨0, _⟩ => rfl | ⟨1, _⟩ => rfl)
theorem bias_at (p : Fin 100000) (q : Fin 128) : idx_main_v24 (idx_main_v25 (ix2 p q)) = ix1 q :=
  funext fun a => Fin.ext (by match a with | ⟨0, _⟩ => rfl)

/-- The reference's result, as a function of its arguments, is the layer over feat, the neighbour means, the two
    transposed weights and the bias. -/
theorem result_eq (x0 : FVec Ideal S100000x128 .f32) (x1 x2 : FVec Ideal S128x128 .f32) (x3 : FVec Ideal S128 .f32)
    (x4 x5 : IVec S1600000 32) :
    val_main_v26 (F := Ideal) x0 x1 x2 x3 x4 x5
      = Cert.Sage.layer x0 (val_main_v18 (F := Ideal) x0 x4 x5) (val_main_v21 (F := Ideal) x1) (val_main_v19 (F := Ideal) x2) x3 := by
  funext i
  obtain ⟨p, q, rfl⟩ : ∃ (p : Fin 100000) (q : Fin 128), i = ix2 p q := ⟨i 0, i 1, eq_ix2 i⟩
  rw [val_main_v26_apply, val_main_v23_apply, val_main_v22_apply, val_main_v20_apply, val_main_v25_apply, val_main_v24_apply,
    Cert.Sage.layer_ix2]
  unfold Cert.Sage.entry
  simp only [left_self, right_self, left_neigh, right_neigh, bias_at]
  rfl

end Cert.ReferenceIdeal.Layer

end
-- ==== Proof.lean ====
/-
  A GRAPH LAYER: EVERY NODE'S OWN FEATURES AND THE MEAN OF ITS IN-NEIGHBOURS', EACH PROJECTED, PLUS A BIAS.

  Both programs first compute, by the same gather of feat by the source ids and the same two scatter-adds by the
  destination ids, the array h of neighbour means, and the two weight matrices transposed. The reference then takes two
  dot products over the whole arrays, adds them, and adds the bias broadcast along the nodes. The kernel does the same
  arithmetic 5000 rows at a time over a grid of 20 steps: each step multiplies its block of feat and its block of h
  by the two transposed weights into zero accumulators (the operands first rounded to bf16, which changes nothing on the
  extended reals), adds the two products, adds the bias row, and stores the block.

  On the extended reals both results are, at entry (p, q),

      ( Σ_k feat(p, k) · W_self(q, k)  +  Σ_k h(p, k) · W_neigh(q, k) )  +  bias(q),

  with the same grouping of the two additions on both sides, so nothing is rearranged and no law that could fail at an
  infinity is used: the precondition (finite inputs) is never opened. A product into a zero accumulator and a dot product
  are the same sum over the contracted coordinate; a row of the result depends on the same row of feat and of h only,
  so the 20 row blocks, which tile the 100000 rows, assemble to the whole array. The arrays h, W_selfᵀ and W_neighᵀ
  enter both sides as whole arrays and are identified operation by operation, never evaluated: whatever the gather and
  the scatter-adds give for ids in or out of range, they give it to both programs.

  The three frames are the two generated frame runs and the reference's generated run with its result dropped; the
  idealized kernel is the kernel's own text read on the extended reals, so there is nothing to preserve.
-/
import proofs.«176140_j7086696039141_1_alg».proof.Defs
import proofs.«176140_j7086696039141_1_alg».proof.Proof.Gen.Kernel
import proofs.«176140_j7086696039141_1_alg».proof.Proof.Gen.Kernel.Skeleton
import proofs.«176140_j7086696039141_1_alg».proof.Proof.Gen.Kernel.Launch
import proofs.«176140_j7086696039141_1_alg».proof.Proof.Gen.Kernel.Points
import proofs.«176140_j7086696039141_1_alg».proof.Proof.Gen.Kernel.Frame
import proofs.«176140_j7086696039141_1_alg».proof.Proof.Gen.KernelIdeal
import proofs.«176140_j7086696039141_1_alg».proof.Proof.Gen.KernelIdeal.Skeleton
import proofs.«176140_j7086696039141_1_alg».proof.Proof.Gen.KernelIdeal.Launch
import proofs.«176140_j7086696039141_1_alg».proof.Proof.Gen.KernelIdeal.Points
import proofs.«176140_j7086696039141_1_alg».proof.Proof.Gen.KernelIdeal.Frame
import proofs.«176140_j7086696039141_1_alg».proof.Proof.Gen.ReferenceIdeal
import proofs.«176140_j7086696039141_1_alg».proof.Proof.Gen.Pre_finite_inputs
import proofs.«176140_j7086696039141_1_alg».proof.Proof.Gen.KernelIdeal.Value
import proofs.«176140_j7086696039141_1_alg».proof.Proof.Gen.ReferenceIdeal.Run
import proofs.«176140_j7086696039141_1_alg».proof.Proof.Gen.ReferenceIdeal.Read
import proofs.«176140_j7086696039141_1_alg».proof.Proof.KernelLayer
import proofs.«176140_j7086696039141_1_alg».proof.Proof.HostPrefix
import proofs.«176140_j7086696039141_1_alg».proof.Proof.ReferenceLayer
import Idealize.ShloMosaic.Adequacy
import Idealize.ShloMosaic.Init

noncomputable section

namespace Cert.Proof

open Idealize.ShloMosaic Idealize.ShloMosaic.TcCoe Idealize.SL.Sem

/-- The array both programs end with on core c: the layer over feat, the neighbour means, the two transposed weights
    and the bias, each as a function of the launch arguments. -/
abbrev out (m : (ℓ : Loc Cert.KernelIdeal.nD Cert.KernelIdeal.τ Cert.KernelIdeal.sig) → Buf (Elt Ideal) ℓ)
    (c : Dev Cert.KernelIdeal.nD) : FVec Ideal ⟨2, ![100000, 128]⟩ .f32 :=
  Cert.Sage.layer (m ((c : Thread Cert.KernelIdeal.nD Cert.KernelIdeal.τ).loc Cert.KernelIdeal.main_arg0))
    (Cert.ReferenceIdeal.Read.val_main_v18 (F := Ideal)
      (m ((c : Thread Cert.KernelIdeal.nD Cert.KernelIdeal.τ).loc Cert.KernelIdeal.main_arg0))
      (m ((c : Thread Cert.KernelIdeal.nD Cert.KernelIdeal.τ).loc Cert.KernelIdeal.main_arg4))
      (m ((c : Thread Cert.KernelIdeal.nD Cert.KernelIdeal.τ).loc Cert.KernelIdeal.main_arg5)))
    (Cert.ReferenceIdeal.Read.val_main_v21 (F := Ideal)
      (m ((c : Thread Cert.KernelIdeal.nD Cert.KernelIdeal.τ).loc Cert.KernelIdeal.main_arg1)))
    (Cert.ReferenceIdeal.Read.val_main_v19 (F := Ideal)
      (m ((c : Thread Cert.KernelIdeal.nD Cert.KernelIdeal.τ).loc Cert.KernelIdeal.main_arg2)))
    (m ((c : Thread Cert.KernelIdeal.nD Cert.KernelIdeal.τ).loc Cert.KernelIdeal.main_arg3))

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- The kernel's output array after the run is the layer over the arrays the grid finds, and those are the launch feat
    and bias and the reference's own three intermediate arrays; the reference's result is the layer over the same five
    arrays of arguments that agree. -/
theorem algebraic : Cert.algebraic_KernelIdeal_ReferenceIdeal := by
  intro m ρ m' ρ' _ hagree
  refine ⟨fun c => out m c, ?_, ?_⟩
  · exact (θ_run Cert.KernelIdeal.defs _ _).mono (fun r h c => ⟨(h c).1.trans ((Cert.KernelIdeal.Layer.final m c).trans
        (Cert.Sage.layer_congr (Cert.KernelIdeal.Gen.V_main_arg0 m c) (Cert.KernelIdeal.Layer.mean_eq m c)
          (Cert.KernelIdeal.Layer.wself_eq m c) (Cert.KernelIdeal.Layer.wneigh_eq m c) (Cert.KernelIdeal.Gen.V_main_arg3 m c))),
      (h c).2⟩) (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v26_eq, Cert.ReferenceIdeal.Layer.result_eq, (hagree c).1, (hagree c).2.1,
      (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
